-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x32 : Shape := ⟨2, ![8192, 32]⟩
abbrev S8 : Shape := ⟨1, ![8]⟩
abbrev S8x1024x1024 : Shape := ⟨3, ![8, 1024, 1024]⟩
abbrev S8x1024x512 : Shape := ⟨3, ![8, 1024, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024x512 : S_.BroadcastsInDim S8x1024x512 (![] : Fin 0 → Fin S8x1024x512.rank)
  reducesTo_S8x1024x512_S_d0_1_2 : S8x1024x512.ReducesTo [0, 1, 2] S_

variable [Facts]

def fn_part1 {F : FTy → Type} [FloatOps F] (main_v13 : IVec S_ 1) (main_v16 : IVec S8x1024x512 1) : IVec S_ 1 :=
  let main_c_5 : IVec S_ 1 := constantI S_ 1 1#1
  let main_v17 : IVec S_ 1 := (fun x v => Host.reduce IntOp.andi x v reducesTo_S8x1024x512_S_d0_1_2 h_S_) main_v16 main_c_5
  let main_v18 : IVec S_ 1 := andi main_v13 main_v17
  main_v18

def fn {F : FTy → Type} [FloatOps F] (main_arg0 : FVec F S8192x1024 .f32) (main_arg1 : FVec F S8192x32 .f32) (main_arg2 : IVec S8 32) (main_arg3 : IVec S8 32) (main_arg4 : FVec F S8x1024x1024 .f32) (main_arg5 : FVec F S8x1024x512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8x1024x1024 .f32 := Host.absf main_arg4
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S8x1024x512 .f32 := Host.absf main_arg5
  let main_cst_4 : FVec F S_ .f32 := constant S_ .f32 0x7F800000#32
  let main_v15 : FVec F S8x1024x512 .f32 := broadcastInDim S8x1024x512 ![] bcast_S_S8x1024x512 main_cst_4
  let main_v16 : IVec S8x1024x512 1 := cmpf .olt main_v14 main_v15
  fn_part1 (F := F) main_v13 main_v16
-- ==== Kernel.lean ====
abbrev S8192x1024 : Shape := ⟨2, ![8192, 1024]⟩
abbrev S8192x32 : Shape := ⟨2, ![8192, 32]⟩
abbrev S8 : Shape := ⟨1, ![8]⟩
abbrev S8x1024x1024 : Shape := ⟨3, ![8, 1024, 1024]⟩
abbrev S8x1024x512 : Shape := ⟨3, ![8, 1024, 512]⟩
abbrev S512x1024 : Shape := ⟨2, ![512, 1024]⟩
abbrev S512x32 : Shape := ⟨2, ![512, 32]⟩
abbrev S1x1024x1024 : Shape := ⟨3, ![1, 1024, 1024]⟩
abbrev S1x1024x512 : Shape := ⟨3, ![1, 1024, 512]⟩
abbrev S512x32x1 : Shape := ⟨3, ![512, 32, 1]⟩
abbrev S512x32x32 : Shape := ⟨3, ![512, 32, 32]⟩
abbrev S1024x1024 : Shape := ⟨2, ![1024, 1024]⟩
abbrev S512x512 : Shape := ⟨2, ![512, 512]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x32, .f32⟩
  | .hbm, ⟨2, _⟩ => ⟨S8, .i32⟩
  | .hbm, ⟨3, _⟩ => ⟨S8, .i32⟩
  | .hbm, ⟨4, _⟩ => ⟨S8x1024x1024, .f32⟩
  | .hbm, ⟨5, _⟩ => ⟨S8x1024x512, .f32⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x32, .f32⟩
  | .local _ .vmem, ⟨3, _⟩ => ⟨S512x32, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x512, .f32⟩
  | .local _ .vmem, ⟨7, _⟩ => ⟨S1x1024x512, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S512x32_S512x32_0_0 : ∀ a, (![0, 0] : Fin 2 → Nat) a + S512x32.size a ≤ S512x32.size a
  h_S512x32 : 0 < S512x32.numel
  shapeCasts_S512x32_S512x32x1 : S512x32.ShapeCasts S512x32x1
  shapeCasts_S512x32x1_S512x32x1 : S512x32x1.ShapeCasts S512x32x1
  broadcasts_S512x32x1_S512x32x32 : S512x32x1.Broadcasts S512x32x32
  shapeCasts_S512x32x32_S512x1024 : S512x32x32.ShapeCasts S512x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S512x1024_o0_0_S512x512 : S512x1024.Slices ![0, 0] S512x512
  slices_S512x1024_o0_512_S512x512 : S512x1024.Slices ![0, 512] S512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  dot_S512x1024_S1024x1024_S512x1024_1_1_0_0_n_n_wf : DotDims.WF S512x1024 S1024x1024 S512x1024 [1] [1] [0] [0] [] []
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S8192x32.size a
  hwx0_1 : ∀ i : grid0.Coords, EltTy.bits .f32 = 32 ∨ (Rect.block (s := S8192x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x1024.size a
  hwx0_2 : ∀ i : grid0.Coords, EltTy.bits .f32 = 32 ∨ (Rect.block (s := S8x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x1024x512.size a
  hwx0_3 : ∀ i : grid0.Coords, EltTy.bits .f32 = 32 ∨ (Rect.block (s := S8x1024x512) S1x1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x32 : Shape := ⟨2, ![8192, 32]⟩
abbrev S8 : Shape := ⟨1, ![8]⟩
abbrev S8x1024x1024 : Shape := ⟨3, ![8, 1024, 1024]⟩
abbrev S8x1024x512 : Shape := ⟨3, ![8, 1024, 512]⟩
abbrev S8192x32x32 : Shape := ⟨3, ![8192, 32, 32]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x32, .f32⟩
  | .hbm, ⟨2, _⟩ => ⟨S8, .i32⟩
  | .hbm, ⟨3, _⟩ => ⟨S8, .i32⟩
  | .hbm, ⟨4, _⟩ => ⟨S8x1024x1024, .f32⟩
  | .hbm, ⟨5, _⟩ => ⟨S8x1024x512, .f32⟩
  | .hbm, ⟨6, _⟩ => ⟨S8192x32x32, .f32⟩
  | .hbm, ⟨7, _⟩ => ⟨S8192x1024, .f32⟩
  | .hbm, ⟨8, _⟩ => ⟨S8192x1024, .f32⟩
  | .hbm, ⟨9, _⟩ => ⟨S8x1024x1024, .f32⟩
  | .hbm, ⟨10, _⟩ => ⟨S8x1024x1024, .f32⟩
  | .hbm, ⟨11, _⟩ => ⟨S8x1024x512, .f32⟩
  | .hbm, ⟨12, _⟩ => ⟨S8x1024x512, .f32⟩
  | .hbm, ⟨13, _⟩ => ⟨S8x1024x512, .f32⟩
  | .hbm, ⟨14, _⟩ => ⟨S8x1024x512, .f32⟩
  | .hbm, ⟨15, _⟩ => ⟨S_, .f32⟩
  | .hbm, ⟨16, _⟩ => ⟨S8x1024x512, .f32⟩
  | .hbm, ⟨17, _⟩ => ⟨S8x1024x512, .f32⟩
  | .hbm, ⟨18, _⟩ => ⟨S_, .f32⟩
  | .hbm, ⟨19, _⟩ => ⟨S8x1024x512, .f32⟩
  | .hbm, ⟨20, _⟩ => ⟨S8x1024x512, .f32⟩
  | .hbm, ⟨21, _⟩ => ⟨S8x1024x512, .f32⟩
  | .hbm, ⟨22, _⟩ => ⟨S8x1024x512, .f32⟩
  | .hbm, ⟨23, _⟩ => ⟨S8x1024x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]

class Facts₀ : Prop where
  bcast_S8192x32_S8192x32x32_0_1 : S8192x32.BroadcastsInDim S8192x32x32 (![0, 1] : Fin 2 → Fin S8192x32x32.rank)
  shapeCasts_S8192x32x32_S8192x1024 : S8192x32x32.ShapeCasts S8192x1024
  shapeCasts_S8192x1024_S8x1024x1024 : S8192x1024.ShapeCasts S8x1024x1024
  slices_S8x1024x1024_S8x1024x512_0_0_0 : S8x1024x1024.Slices ![0, 0, 0] S8x1024x512
  slices_S8x1024x1024_S8x1024x512_0_0_512 : S8x1024x1024.Slices ![0, 0, 512] S8x1024x512
  bcast_S_S8x1024x512 : S_.BroadcastsInDim S8x1024x512 (![] : Fin 0 → Fin S8x1024x512.rank)
  shapeCasts_S8x1024x1024_S8192x1024 : S8x1024x1024.ShapeCasts S8192x1024
  dot_S8x1024x1024_S8x1024x1024_S8x1024x1024_2_2_1_1_0_0_wf : DotDims.WF S8x1024x1024 S8x1024x1024 S8x1024x1024 [2] [2] [1] [1] [0] [0]
  dot_S8x1024x512_S8x1024x512_S8x1024x1024_2_2_1_1_0_0_wf : DotDims.WF S8x1024x512 S8x1024x512 S8x1024x1024 [2] [2] [1] [1] [0] [0]

variable [Facts₀]

def dot_S8x1024x1024_S8x1024x1024_S8x1024x1024_2_2_1_1_0_0 : DotDims S8x1024x1024 S8x1024x1024 S8x1024x1024 where
  lhsContracting := [2]
  rhsContracting := [2]
  lhsNonContracting := [1]
  rhsNonContracting := [1]
  lhsBatch := [0]
  rhsBatch := [0]
  wf := dot_S8x1024x1024_S8x1024x1024_S8x1024x1024_2_2_1_1_0_0_wf
def dot_S8x1024x512_S8x1024x512_S8x1024x1024_2_2_1_1_0_0 : DotDims S8x1024x512 S8x1024x512 S8x1024x1024 where
  lhsContracting := [2]
  rhsContracting := [2]
  lhsNonContracting := [1]
  rhsNonContracting := [1]
  lhsBatch := [0]
  rhsBatch := [0]
  wf := dot_S8x1024x512_S8x1024x512_S8x1024x1024_2_2_1_1_0_0_wf

class Facts : Prop extends Facts₀ where

variable [Facts]
-- ==== Proof.Spec.lean ====
/-
  The gated two-layer expert network, one token row at a time, on the extended reals.

  A token row `xs : Fin 1024 → EReal` is projected up by a weight table `wu` of 1024 rows (`up xs wu j = ∑ d, xs d · wu j d`);
  the first 512 projections pass through `a ↦ a · logistic a` and gate the last 512 (`hid`), and the 512 gated values
  are projected down by `wd` (`ffnRow`). `G` is the whole result array: row `r` of the token array, each entry scaled by
  the scale of its block of 32 columns (`deq`), goes through the network of expert `r / 1024`.
-/
import Idealize.ShloMosaic.PureOps.Ideal
import Idealize.ShloMosaic.Lib.ValueIdx

noncomputable section

open scoped BigOperators

namespace Cert.ExpertFFN

open Idealize.ShloMosaic Idealize.ShloMosaic.ValueIdx

/-- The block of 32 columns that column `d` lies in. -/
def blockOf (d : Fin 1024) : Fin 32 := ⟨d.val / 32, by have := d.isLt; omega⟩

/-- The expert whose 1024 consecutive rows hold row `r`. -/
def expertOf (r : Fin 8192) : Fin 8 := ⟨r.val / 1024, by have := r.isLt; omega⟩

/-- Projection `h` of the first half and of the second half of the 1024 up-projections. -/
def lowHalf (h : Fin 512) : Fin 1024 := ⟨h.val, by have := h.isLt; omega⟩
def highHalf (h : Fin 512) : Fin 1024 := ⟨512 + h.val, by have := h.isLt; omega⟩

/-- Up-projection `j` of a row. -/
def up (xs : Fin 1024 → EReal) (wu : Fin 1024 → Fin 1024 → EReal) (j : Fin 1024) : EReal :=
  ∑ d : Fin 1024, xs d * wu j d

/-- Gated hidden value `h`: `a · logistic a · b` of the two halves' projections. -/
def hid (xs : Fin 1024 → EReal) (wu : Fin 1024 → Fin 1024 → EReal) (h : Fin 512) : EReal :=
  up xs wu (lowHalf h) * Ideal.logistic (up xs wu (lowHalf h)) * up xs wu (highHalf h)

/-- Output column `q` of a row: the gated hidden values projected down. -/
def ffnRow (xs : Fin 1024 → EReal) (wu : Fin 1024 → Fin 1024 → EReal) (wd : Fin 1024 → Fin 512 → EReal) (q : Fin 1024) : EReal :=
  ∑ h : Fin 512, hid xs wu h * wd q h

/-- Row `r` of the token array with every entry scaled by its block's scale. -/
def deq (x : (⟨2, ![8192, 1024]⟩ : Shape).Idx → EReal) (s : (⟨2, ![8192, 32]⟩ : Shape).Idx → EReal) (r : Fin 8192) :
    Fin 1024 → EReal := fun d => x (ix2 r d) * s (ix2 r (blockOf d))

/-- The whole result: entry `(r, q)` is column `q` of row `r`'s network output under expert `r / 1024`'s weights. -/
def G (x : (⟨2, ![8192, 1024]⟩ : Shape).Idx → EReal) (s : (⟨2, ![8192, 32]⟩ : Shape).Idx → EReal)
    (w13 : (⟨3, ![8, 1024, 1024]⟩ : Shape).Idx → EReal) (w2 : (⟨3, ![8, 1024, 512]⟩ : Shape).Idx → EReal) :
    (⟨2, ![8192, 1024]⟩ : Shape).Idx → EReal := fun i =>
  ffnRow (deq x s (i 0)) (fun j d => w13 (ix3 (expertOf (i 0)) j d)) (fun q h => w2 (ix3 (expertOf (i 0)) q h)) (i 1)

/-- `G` at an index given by its coordinates. -/
theorem G_ix2 (x : (⟨2, ![8192, 1024]⟩ : Shape).Idx → EReal) (s : (⟨2, ![8192, 32]⟩ : Shape).Idx → EReal)
    (w13 : (⟨3, ![8, 1024, 1024]⟩ : Shape).Idx → EReal) (w2 : (⟨3, ![8, 1024, 512]⟩ : Shape).Idx → EReal)
    (r : Fin 8192) (q : Fin 1024) :
    G x s w13 w2 (ix2 r q)
      = ffnRow (deq x s r) (fun j d => w13 (ix3 (expertOf r) j d)) (fun q h => w2 (ix3 (expertOf r) q h)) q := rfl

end Cert.ExpertFFN

end
-- ==== Proof.KernelPayload.lean ====
/-
  What the kernel body stores, at one entry of its [512, 1024] block, is the row network `ffnRow` of the body's loads.

  The body spreads the [512, 32] scale block over 32 columns each (a cast to [512, 32, 1], a broadcast to [512, 32, 32],
  a cast to [512, 1024]: column `d` reads scale `d / 32`), multiplies the token block by it, contracts every row with the
  1024 rows of the expert's first table, takes `a · logistic a · b` of columns `h` and `512 + h`, and contracts the 512
  gated values with the rows of the expert's second table. At the extended reals the narrowing to bf16 is the identity
  and a matrix product into a zero accumulator is the plain sum over the contracted axis.
-/
import proofs.«179307_j37014028157134_1_alg».proof.Proof.Gen.KernelIdeal.Skeleton
import proofs.«179307_j37014028157134_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ExpertFFN.Ker

open Cert.KernelIdeal Cert.KernelIdeal.Gen Idealize.ShloMosaic Idealize.ShloMosaic.ValueIdx
open Cert.ExpertFFN

/-! ## The two matrix products read at an entry

Both contract axis 1 of the left operand with axis 1 of the right one: entry `(p, j)` is `∑ k, l (p, k) · r (j, k)`. -/

theorem lhs_up_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_up_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_up_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_up_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The up-projection product at `(p, j)`: the sum over the 1024 columns. -/
theorem up_matmul_apply {φ₁ φ₂ : FTy} (l : FVec Ideal S512x1024 φ₁) (r : FVec Ideal S1024x1024 φ₂) (p : Fin 512) (j : Fin 1024) :
    matmul dot_S512x1024_S1024x1024_S512x1024_1_1_0_0_n_n none l r (constant (F := Ideal) S512x1024 .f32 0x00000000#32) (ix2 p j)
      = ∑ d : Fin 1024, l (ix2 p d) * r (ix2 j d) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p j) ((contrEquiv1 dot_S512x1024_S1024x1024_S512x1024_1_1_0_0_n_n 1024 rfl rfl).symm k) = ix2 p k := funext fun a => Fin.ext (by
    match a with
    | ⟨0, _⟩ => exact lhs_up_0 _ _
    | ⟨1, _⟩ => exact (lhs_up_1 _ _).trans hk)
  have er : dot_S512x1024_S1024x1024_S512x1024_1_1_0_0_n_n.rhsIdx (ix2 p j) ((contrEquiv1 dot_S512x1024_S1024x1024_S512x1024_1_1_0_0_n_n 1024 rfl rfl).symm k) = ix2 j k := funext fun a => Fin.ext (by
    match a with
    | ⟨0, _⟩ => exact rhs_up_0 _ _
    | ⟨1, _⟩ => exact (rhs_up_1 _ _).trans hk)
  rw [el, er]

theorem lhs_down_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem lhs_down_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
theorem rhs_down_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem rhs_down_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- The down-projection product at `(p, q)`: the sum over the 512 gated values. -/
theorem down_matmul_apply {φ₁ φ₂ : FTy} (l : FVec Ideal S512x512 φ₁) (r : FVec Ideal S1024x512 φ₂) (p : Fin 512) (q : Fin 1024) :
    matmul dot_S512x512_S1024x512_S512x1024_1_1_0_0_n_n none l r (constant (F := Ideal) S512x1024 .f32 0x00000000#32) (ix2 p q)
      = ∑ h : Fin 512, l (ix2 p h) * r (ix2 q h) := by
  simp only [matmul]
  rw [Ideal.matmul_constant_zero_apply, ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 p q) ((contrEquiv1 dot_S512x512_S1024x512_S512x1024_1_1_0_0_n_n 512 rfl rfl).symm k) = ix2 p k := funext fun a => Fin.ext (by
    match a with
    | ⟨0, _⟩ => exact lhs_down_0 _ _
    | ⟨1, _⟩ => exact (lhs_down_1 _ _).trans hk)
  have er : dot_S512x512_S1024x512_S512x1024_1_1_0_0_n_n.rhsIdx (ix2 p q) ((contrEquiv1 dot_S512x512_S1024x512_S512x1024_1_1_0_0_n_n 512 rfl rfl).symm k) = ix2 q k := funext fun a => Fin.ext (by
    match a with
    | ⟨0, _⟩ => exact rhs_down_0 _ _
    | ⟨1, _⟩ => exact (rhs_down_1 _ _).trans hk)
  rw [el, er]

/-! ## The body's intermediate arrays, named -/

section Named
variable {F : FTy → Type} [FloatOps F]

/-- The scale block spread over the 1024 columns. -/
def scaleFull (v0 : Vec F S512x32 .f32) : FVec F S512x1024 .f32 :=
  shapeCast S512x1024 (broadcastTo S512x32x32 (shapeCast S512x32x1 (shapeCast S512x32x1 v0 shapeCasts_S512x32_S512x32x1)
    shapeCasts_S512x32x1_S512x32x1) broadcasts_S512x32x1_S512x32x32) shapeCasts_S512x32x32_S512x1024

/-- All 1024 up-projections of the block's 512 rows. -/
def upAll (v0 : Vec F S512x32 .f32) (v5 : Vec F S512x1024 .f32) (v8 : Vec F S1x1024x1024 .f32) : FVec F S512x1024 .f32 :=
  matmul dot_S512x1024_S1024x1024_S512x1024_1_1_0_0_n_n none (truncf .bf16 (mulf (v5 : FVec F S512x1024 .f32) (scaleFull v0)) bitsLt_bf16_f32)
    (truncf .bf16 (shapeCast S1024x1024 v8 shapeCasts_S1x1024x1024_S1024x1024 : FVec F S1024x1024 .f32) bitsLt_bf16_f32)
    (constant S512x1024 .f32 0x00000000#32)

/-- The 512 gated hidden values of the block's 512 rows. -/
def hidAll (v0 : Vec F S512x32 .f32) (v5 : Vec F S512x1024 .f32) (v8 : Vec F S1x1024x1024 .f32) : FVec F S512x512 .f32 :=
  mulf (mulf (extractStridedSlice S512x512 ![0, 0] (upAll v0 v5 v8) slices_S512x1024_o0_0_S512x512)
      (logistic (extractStridedSlice S512x512 ![0, 0] (upAll v0 v5 v8) slices_S512x1024_o0_0_S512x512)))
    (extractStridedSlice S512x512 ![0, 512] (upAll v0 v5 v8) slices_S512x1024_o0_512_S512x512)

/-- The stored value is the down-projection of the gated hidden values: the body's text with its intermediate arrays named. -/
theorem pay_eq (v0 : Vec F S512x32 .f32) (v5 : Vec F S512x1024 .f32) (v8 : Vec F S1x1024x1024 .f32) (v18 : Vec F S1x1024x512 .f32) :
    k0_pay1 v0 v5 v8 v18
      = matmul dot_S512x512_S1024x512_S512x1024_1_1_0_0_n_n none (truncf .bf16 (hidAll v0 v5 v8) bitsLt_bf16_f32)
          (truncf .bf16 (shapeCast S1024x512 v18 shapeCasts_S1x1024x512_S1024x512 : FVec F S1024x512 .f32) bitsLt_bf16_f32)
          (constant S512x1024 .f32 0x00000000#32) := rfl

end Named

/-! ## The named arrays at an entry, on the extended reals -/

/-- Column `d` of the spread scales reads the scale of block `d / 32`. -/
theorem scaleFull_apply (v0 : S512x32.Idx → EReal) (p : Fin 512) (d : Fin 1024) :
    scaleFull (F := Ideal) v0 (ix2 p d) = v0 (ix2 p (blockOf d)) := by
  have hd : d.val < 1024 := d.isLt
  unfold scaleFull
  refine (shapeCast_apply _ shapeCasts_S512x32x32_S512x1024 (ix2 p d) (ix3 p (blockOf d) (⟨d.val % 32, by omega⟩ : Fin 32)) ?_).trans ?_
  · rw [Shape.rowMajor_val_three, Shape.rowMajor_val_two]
    show (p.val * 32 + d.val / 32) * 32 + d.val % 32 = p.val * 1024 + d.val
    omega
  refine (broadcastTo_apply _ broadcasts_S512x32x1_S512x32x32 _ (ix3 p (blockOf d) (0 : Fin 1)) (fun a => ?_)).trans ?_
  · match a with
    | ⟨0, _⟩ => show p.val = if (512 : Nat) = 1 then 0 else p.val; rw [if_neg (by decide)]
    | ⟨1, _⟩ => show d.val / 32 = if (32 : Nat) = 1 then 0 else d.val / 32; rw [if_neg (by decide)]
    | ⟨2, _⟩ => show (0 : Nat) = if (1 : Nat) = 1 then 0 else d.val % 32; rw [if_pos rfl]
  rw [shapeCast_self]
  exact shapeCast_apply v0 shapeCasts_S512x32_S512x32x1 _ (ix2 p (blockOf d)) (by
    rw [Shape.rowMajor_val_two, Shape.rowMajor_val_three]
    show p.val * 32 + d.val / 32 = (p.val * 32 + d.val / 32) * 1 + 0
    omega)

/-- Up-projection `j` of the block's row `p`. -/
theorem upAll_apply (v0 : S512x32.Idx → EReal) (v5 : S512x1024.Idx → EReal) (v8 : S1x1024x1024.Idx → EReal) (p : Fin 512) (j : Fin 1024) :
    upAll (F := Ideal) v0 v5 v8 (ix2 p j)
      = up (fun d => v5 (ix2 p d) * v0 (ix2 p (blockOf d))) (fun j d => v8 (ix3 (0 : Fin 1) j d)) j := by
  unfold upAll up
  rw [up_matmul_apply]
  refine Finset.sum_congr rfl fun d _ => ?_
  rw [truncf_apply, truncf_apply, mulf_apply, scaleFull_apply, shapeCast_1ab_ab_apply]

/-- Gated hidden value `h` of the block's row `p`. -/
theorem hidAll_apply (v0 : S512x32.Idx → EReal) (v5 : S512x1024.Idx → EReal) (v8 : S1x1024x1024.Idx → EReal) (p : Fin 512) (h : Fin 512) :
    hidAll (F := Ideal) v0 v5 v8 (ix2 p h)
      = hid (fun d => v5 (ix2 p d) * v0 (ix2 p (blockOf d))) (fun j d => v8 (ix3 (0 : Fin 1) j d)) h := by
  have e0 : extractStridedSlice S512x512 ![0, 0] (upAll (F := Ideal) v0 v5 v8) slices_S512x1024_o0_0_S512x512 (ix2 p h)
      = upAll (F := Ideal) v0 v5 v8 (ix2 p (lowHalf h)) :=
    slice2_axis1_apply 0 _ _ p h (lowHalf h) (by show h.val = 0 + h.val; omega)
  have e1 : extractStridedSlice S512x512 ![0, 512] (upAll (F := Ideal) v0 v5 v8) slices_S512x1024_o0_512_S512x512 (ix2 p h)
      = upAll (F := Ideal) v0 v5 v8 (ix2 p (highHalf h)) :=
    slice2_axis1_apply 512 _ _ p h (highHalf h) rfl
  unfold hidAll hid
  rw [mulf_apply, mulf_apply]
  show extractStridedSlice S512x512 ![0, 0] (upAll (F := Ideal) v0 v5 v8) slices_S512x1024_o0_0_S512x512 (ix2 p h)
      * Ideal.logistic (extractStridedSlice S512x512 ![0, 0] (upAll (F := Ideal) v0 v5 v8) slices_S512x1024_o0_0_S512x512 (ix2 p h))
      * extractStridedSlice S512x512 ![0, 512] (upAll (F := Ideal) v0 v5 v8) slices_S512x1024_o0_512_S512x512 (ix2 p h) = _
  rw [e0, e1, upAll_apply, upAll_apply]

/-- THE STORED VALUE at entry `(p, q)` of the block: the row network of the loaded blocks' row `p`, at column `q`. -/
theorem pay_apply (v0 : S512x32.Idx → EReal) (v5 : S512x1024.Idx → EReal) (v8 : S1x1024x1024.Idx → EReal) (v18 : S1x1024x512.Idx → EReal)
    (p : Fin 512) (q : Fin 1024) :
    k0_pay1 (F := Ideal) v0 v5 v8 v18 (ix2 p q)
      = ffnRow (fun d => v5 (ix2 p d) * v0 (ix2 p (blockOf d))) (fun j d => v8 (ix3 (0 : Fin 1) j d))
          (fun q h => v18 (ix3 (0 : Fin 1) q h)) q := by
  rw [pay_eq]
  unfold ffnRow
  rw [down_matmul_apply]
  refine Finset.sum_congr rfl fun h _ => ?_
  rw [truncf_apply, truncf_apply, hidAll_apply, shapeCast_1ab_ab_apply]

end Cert.ExpertFFN.Ker

end
-- ==== Proof.KernelValue.lean ====
/-
  The kernel's result array is the specification `G` of the argument arrays.

  Grid point `(e, i)` works on rows `512 (2 e + i) .. 512 (2 e + i) + 511`: it stages that block of the token array and of
  the scale array, the whole tables of expert `e`, and writes the block of the result back. Row `p` of the block is
  row `r = 512 (2 e + i) + p` of the arrays, and `r / 1024 = e`, so what the point writes back is block `(2 e + i, 0)` of
  `G`; the 16 blocks cover the 8192 rows.
-/
import proofs.«179307_j37014028157134_1_alg».proof.Proof.Gen.KernelIdeal.Value
import proofs.«179307_j37014028157134_1_alg».proof.Proof.KernelPayload
import Idealize.ShloMosaic.Lib.Pipeline.Value

noncomputable section

namespace Cert.ExpertFFN.KerValue

open Cert.KernelIdeal Cert.KernelIdeal.Gen Idealize.ShloMosaic Idealize.ShloMosaic.TcCoe Idealize.SL.Sem
open Idealize.ShloMosaic.ValueIdx
open Idealize.ShloMosaic.Pipeline (Dat)
open Cert.ExpertFFN

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- Where each window's block sits at a grid point, against the result's block row `b`: the token and scale blocks are
    block row `b` too, the two tables are expert `b / 2`'s, and `b` runs over the 16 block rows (decided over the grid). -/
theorem blockIdx : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 3) = win0_4.index t (0 : Fin 2) / 2 ∧ win0_2.index t (1 : Fin 3) = 0 ∧ win0_2.index t (2 : Fin 3) = 0
    ∧ win0_3.index t (0 : Fin 3) = win0_4.index t (0 : Fin 2) / 2 ∧ win0_3.index t (1 : Fin 3) = 0 ∧ win0_3.index t (2 : Fin 3) = 0
    ∧ win0_4.index t (0 : Fin 2) < 16 ∧ win0_4.index t (1 : Fin 2) = 0 :=
  (by decide +kernel : ∀ t : Fin grid0.N, _)

/-- Every block row is some grid point's. -/
theorem blockRow_onto : ∀ b : Fin 16, ∃ t : Fin cfg0.N, win0_4.index t = ![b.val, 0] :=
  (by decide +kernel : ∀ b : Fin 16, ∃ t : Fin grid0.N, win0_4.index t = ![b.val, 0])

/-! ## The staged blocks, read at an entry -/

/-- The four staged blocks at a point, as arrays of extended reals over their literal shapes. -/
abbrev tokBlk (c : Dev nD) (t : Fin cfg0.N) : S512x1024.Idx → EReal := iblk m c 0 t
abbrev sclBlk (c : Dev nD) (t : Fin cfg0.N) : S512x32.Idx → EReal := iblk m c 1 t
abbrev upBlk (c : Dev nD) (t : Fin cfg0.N) : S1x1024x1024.Idx → EReal := iblk m c 2 t
abbrev downBlk (c : Dev nD) (t : Fin cfg0.N) : S1x1024x512.Idx → EReal := iblk m c 3 t

/-- Row `p` of the staged token block is row `r` of the token array. -/
theorem tokBlock_apply (c : Dev nD) (t : Fin cfg0.N) (p : Fin 512) (d : Fin 1024) (r : Fin 8192)
    (hr : r.val = win0_4.index t (0 : Fin 2) * 512 + p.val) :
    tokBlk m c t (ix2 p d) = V m c main_arg0 (ix2 r d) := by
  obtain ⟨e00, e01, -⟩ := blockIdx t
  show V m c main_arg0 (((cfg0.win 0).blk t).view.emb (ix2 p d)) = V m c main_arg0 (ix2 r d)
  refine congrArg (V m c main_arg0) (funext fun a => Fin.ext ?_)
  match a with
  | ⟨0, _⟩ => show win0_0.index t (0 : Fin 2) * 512 + 1 * p.val = r.val; omega
  | ⟨1, _⟩ => show win0_0.index t (1 : Fin 2) * 1024 + 1 * d.val = d.val; omega

/-- Row `p` of the staged scale block is row `r` of the scale array. -/
theorem sclBlock_apply (c : Dev nD) (t : Fin cfg0.N) (p : Fin 512) (b : Fin 32) (r : Fin 8192)
    (hr : r.val = win0_4.index t (0 : Fin 2) * 512 + p.val) :
    sclBlk m c t (ix2 p b) = V m c main_arg1 (ix2 r b) := by
  obtain ⟨-, -, e10, e11, -⟩ := blockIdx t
  show V m c main_arg1 (((cfg0.win 1).blk t).view.emb (ix2 p b)) = V m c main_arg1 (ix2 r b)
  refine congrArg (V m c main_arg1) (funext fun a => Fin.ext ?_)
  match a with
  | ⟨0, _⟩ => show win0_1.index t (0 : Fin 2) * 512 + 1 * p.val = r.val; omega
  | ⟨1, _⟩ => show win0_1.index t (1 : Fin 2) * 32 + 1 * b.val = b.val; omega

/-- The staged first table is expert `e`'s. -/
theorem upBlock_apply (c : Dev nD) (t : Fin cfg0.N) (j d : Fin 1024) (e : Fin 8)
    (he : e.val = win0_4.index t (0 : Fin 2) / 2) :
    upBlk m c t (ix3 (0 : Fin 1) j d) = V m c main_arg4 (ix3 e j d) := by
  obtain ⟨-, -, -, -, e20, e21, e22, -⟩ := blockIdx t
  show V m c main_arg4 (((cfg0.win 2).blk t).view.emb (ix3 (0 : Fin 1) j d)) = V m c main_arg4 (ix3 e j d)
  refine congrArg (V m c main_arg4) (funext fun a => Fin.ext ?_)
  match a with
  | ⟨0, _⟩ => show win0_2.index t (0 : Fin 3) * 1 + 1 * 0 = e.val; omega
  | ⟨1, _⟩ => show win0_2.index t (1 : Fin 3) * 1024 + 1 * j.val = j.val; omega
  | ⟨2, _⟩ => show win0_2.index t (2 : Fin 3) * 1024 + 1 * d.val = d.val; omega

/-- The staged second table is expert `e`'s. -/
theorem downBlock_apply (c : Dev nD) (t : Fin cfg0.N) (q : Fin 1024) (h : Fin 512) (e : Fin 8)
    (he : e.val = win0_4.index t (0 : Fin 2) / 2) :
    downBlk m c t (ix3 (0 : Fin 1) q h) = V m c main_arg5 (ix3 e q h) := by
  obtain ⟨-, -, -, -, -, -, -, e30, e31, e32, -⟩ := blockIdx t
  show V m c main_arg5 (((cfg0.win 3).blk t).view.emb (ix3 (0 : Fin 1) q h)) = V m c main_arg5 (ix3 e q h)
  refine congrArg (V m c main_arg5) (funext fun a => Fin.ext ?_)
  match a with
  | ⟨0, _⟩ => show win0_3.index t (0 : Fin 3) * 1 + 1 * 0 = e.val; omega
  | ⟨1, _⟩ => show win0_3.index t (1 : Fin 3) * 1024 + 1 * q.val = q.val; omega
  | ⟨2, _⟩ => show win0_3.index t (2 : Fin 3) * 512 + 1 * h.val = h.val; omega

/-! ## What a point writes back -/

/-- WHAT POINT `t` WRITES BACK is its block of `G` of the argument arrays. -/
theorem flushed_eq (c : Dev nD) (t : Fin cfg0.N) :
    (dats m 0 c).flushed 4 t
      = ((cfg0.win 4).blk t).view.read (Elt Ideal) (G (V m c main_arg0) (V m c main_arg1) (V m c main_arg4) (V m c main_arg5)) := by
  rw [Cert.KernelIdeal.Value.flushed4]
  unfold out0_4
  rw [View.canon_unit_zero zero2]
  simp only [View.ld_unit_zero (S := S512x32) zero2, View.ld_unit_zero (S := S512x1024) zero2,
    View.ld_unit_zero (S := S1x1024x1024) zero3, View.ld_unit_zero (S := S1x1024x512) zero3]
  obtain ⟨-, -, -, -, -, -, -, -, -, -, hb, e41⟩ := blockIdx t
  refine funext fun (y : S512x1024.Idx) => ?_
  obtain ⟨p, q, rfl⟩ : ∃ (p : Fin 512) (q : Fin 1024), y = ix2 p q := ⟨y 0, y 1, eq_ix2 y⟩
  have hp : p.val < 512 := p.isLt
  have hq : q.val < 1024 := q.isLt
  -- the row of the arrays under row `p` of the block, and its expert
  let r : Fin 8192 := ⟨win0_4.index t (0 : Fin 2) * 512 + p.val, by omega⟩
  have hr : r.val = win0_4.index t (0 : Fin 2) * 512 + p.val := rfl
  have he : (expertOf r).val = win0_4.index t (0 : Fin 2) / 2 := by
    show (win0_4.index t (0 : Fin 2) * 512 + p.val) / 1024 = win0_4.index t (0 : Fin 2) / 2
    omega
  have hemb : ((cfg0.win 4).blk t).view.emb (ix2 p q) = ix2 r q := funext fun a => Fin.ext (by
    match a with
    | ⟨0, _⟩ => show win0_4.index t (0 : Fin 2) * 512 + 1 * p.val = r.val; omega
    | ⟨1, _⟩ => show win0_4.index t (1 : Fin 2) * 1024 + 1 * q.val = q.val; omega)
  show k0_pay1 (F := Ideal) (sclBlk m c t) (tokBlk m c t) (upBlk m c t) (downBlk m c t) (ix2 p q)
    = G (V m c main_arg0) (V m c main_arg1) (V m c main_arg4) (V m c main_arg5) (((cfg0.win 4).blk t).view.emb (ix2 p q))
  rw [hemb, G_ix2, Ker.pay_apply (sclBlk m c t) (tokBlk m c t) (upBlk m c t) (downBlk m c t) p q]
  have hx : (fun d : Fin 1024 => tokBlk m c t (ix2 p d) * sclBlk m c t (ix2 p (blockOf d)))
      = deq (V m c main_arg0) (V m c main_arg1) r := funext fun d => by
    unfold deq
    rw [tokBlock_apply m c t p d r hr, sclBlock_apply m c t p (blockOf d) r hr]
  have hu : (fun (j d : Fin 1024) => upBlk m c t (ix3 (0 : Fin 1) j d))
      = fun j d => V m c main_arg4 (ix3 (expertOf r) j d) := funext fun j => funext fun d =>
    upBlock_apply m c t j d (expertOf r) he
  have hw : (fun (q : Fin 1024) (h : Fin 512) => downBlk m c t (ix3 (0 : Fin 1) q h))
      = fun q h => V m c main_arg5 (ix3 (expertOf r) q h) := funext fun q => funext fun h =>
    downBlock_apply m c t q h (expertOf r) he
  rw [hx, hu, hw]

/-! ## The blocks cover the array -/

/-- An index of the result array is in point `t`'s block iff each coordinate is in the block's range on its axis. -/
theorem mem_blk (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0).slice (win0_4.rect t)).set ↔ _
  rw [View.set_slice_whole, Rect.mem_set_unit]
  exact Iff.rfl

/-- Row `r` lies in block row `r / 512`, which some point writes back. -/
theorem covered (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := blockRow_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- THE RESULT ARRAY after the run is `G` of the argument arrays. -/
theorem final (c : Dev nD) :
    (dats m 0 c).arrAt 4 cfg0.N = G (V m c main_arg0) (V m c main_arg1) (V m c main_arg4) (V m c main_arg5) :=
  (dats m 0 c).arrAt_eq_of_cover 4 (G (V m c main_arg0) (V m c main_arg1) (V m c main_arg4) (V m c main_arg5))
    (fun t _ => flushed_eq m c t) covered

/-- The kernel's run: every weakly fair execution ends with the result array at `G` of the arguments as launched, the
    arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.ExpertFFN.KerValue

end
-- ==== Proof.RefValue.lean ====
/-
  The reference program's result, index by index, is the specification `G`.

  The reference repeats each scale over its block of 32 columns (a broadcast to [8192, 32, 32] flattened to
  [8192, 1024]), multiplies, regroups the 8192 rows as 8 experts of 1024 rows, contracts each row with its
  expert's 1024 weight rows, gates the first 512 projections (`a · (1 / (1 + e^(-a)))`, which is `a · logistic a`)
  with the last 512, contracts with the expert's second table and flattens the rows back. Row `r` is regrouped as
  `(r / 1024, r % 1024)` and flattened back to `1024 · (r / 1024) + r % 1024 = r`.
-/
import proofs.«179307_j37014028157134_1_alg».proof.Proof.Gen.ReferenceIdeal.Read
import proofs.«179307_j37014028157134_1_alg».proof.Proof.Spec

noncomputable section

open scoped BigOperators

namespace Cert.ExpertFFN.Ref

open Cert.ReferenceIdeal Cert.ReferenceIdeal.Gen Cert.ReferenceIdeal.Read Idealize.ShloMosaic Idealize.ShloMosaic.ValueIdx
open Cert.ExpertFFN

/-- The word of `1.0` is the extended real `1`. -/
theorem one_f32 : Ideal.ofBits .f32 0x3F800000#32 = 1 := IdealRules.sign_bit.ideal_onePat .f32

/-- The regrouped, scaled activations: entry `(e, t, d)` is entry `d` of the scaled row `1024 e + t`. -/
theorem scaled_apply (x0 : (⟨S8192x1024, .f32⟩ : BufTy).Contents (Elt Ideal)) (x1 : (⟨S8192x32, .f32⟩ : BufTy).Contents (Elt Ideal))
    (j : S8x1024x1024.Idx) (r : Fin 8192) (d : Fin 1024)
    (hr : r.val = (j 0).val * 1024 + (j 1).val) (hd : d.val = (j 2).val) :
    val_main_v3 (F := Ideal) x0 x1 j = deq x0 x1 r d := by
  have h0 : (j 0).val < 8 := (j 0).isLt
  have h1 : (j 1).val < 1024 := (j 1).isLt
  have h2 : (j 2).val < 1024 := (j 2).isLt
  have hdl : d.val < 1024 := d.isLt
  have e1 : idx_main_v3 j = ix2 r d := funext fun a => Fin.ext (by
    match a with
    | ⟨0, _⟩ => show (((j 0).val * 1024 + (j 1).val) * 1024 + (j 2).val) / 1024 = r.val; omega
    | ⟨1, _⟩ => show (((j 0).val * 1024 + (j 1).val) * 1024 + (j 2).val) % 1024 = d.val; omega)
  have e2 : idx_main_v0 (idx_main_v1 (ix2 r d)) = ix2 r (blockOf d) := funext fun a => Fin.ext (by
    match a with
    | ⟨0, _⟩ => show (r.val * 1024 + d.val) / 1024 = r.val; omega
    | ⟨1, _⟩ => show (r.val * 1024 + d.val) / 32 % 32 = d.val / 32; omega)
  rw [val_main_v3_apply, e1, val_main_v2_apply, val_main_v1_apply, val_main_v0_apply, e2]
  rfl

/-- Up-projection `c` of row `1024 e + t` under expert `e`. -/
theorem up_apply (x0 : (⟨S8192x1024, .f32⟩ : BufTy).Contents (Elt Ideal)) (x1 : (⟨S8192x32, .f32⟩ : BufTy).Contents (Elt Ideal))
    (x4 : (⟨S8x1024x1024, .f32⟩ : BufTy).Contents (Elt Ideal)) (j : S8x1024x1024.Idx) (r : Fin 8192) (e : Fin 8) (c : Fin 1024)
    (hr : r.val = (j 0).val * 1024 + (j 1).val) (he : e.val = (j 0).val) (hc : c.val = (j 2).val) :
    val_main_v4 (F := Ideal) x0 x1 x4 j = up (deq x0 x1 r) (fun j d => x4 (ix3 e j d)) c := by
  rw [val_main_v4_apply]
  unfold up
  refine Finset.sum_congr rfl fun d _ => ?_
  rw [scaled_apply x0 x1 (lidx_main_v4 j d) r d hr rfl]
  refine congrArg (deq x0 x1 r d * ·) (congrArg x4 (funext fun a => Fin.ext ?_))
  match a with
  | ⟨0, _⟩ => exact he.symm
  | ⟨1, _⟩ => exact hc.symm
  | ⟨2, _⟩ => rfl

/-- Gated hidden value `h` of row `1024 e + t`: the host's `1 / (1 + e^(-a))` is `logistic a`. -/
theorem hid_apply (x0 : (⟨S8192x1024, .f32⟩ : BufTy).Contents (Elt Ideal)) (x1 : (⟨S8192x32, .f32⟩ : BufTy).Contents (Elt Ideal))
    (x4 : (⟨S8x1024x1024, .f32⟩ : BufTy).Contents (Elt Ideal)) (j : S8x1024x512.Idx) (r : Fin 8192) (e : Fin 8) (h : Fin 512)
    (hr : r.val = (j 0).val * 1024 + (j 1).val) (he : e.val = (j 0).val) (hh : h.val = (j 2).val) :
    val_main_v8 (F := Ideal) x0 x1 x4 j = hid (deq x0 x1 r) (fun j d => x4 (ix3 e j d)) h := by
  rw [val_main_v8_apply, val_main_v7_apply, val_main_call0_v5_apply, val_main_call0_v4_apply, val_main_call0_cst_0_apply,
    val_main_call0_v3_apply, val_main_call0_v2_apply, val_main_call0_cst_apply, val_main_call0_v1_apply,
    val_main_call0_v0_apply, val_main_v6_apply, val_main_v5_apply,
    up_apply x0 x1 x4 (idx_main_v5 j) r e (lowHalf h) hr he hh,
    up_apply x0 x1 x4 (idx_main_v6 j) r e (highHalf h) hr he (by show 512 + h.val = 512 + (j 2).val; omega)]
  simp only [Ideal.mulf_def, Ideal.hostDivf_def, Ideal.addf_def, Ideal.hostUnary_exp_def, Ideal.hostNegf_def, Ideal.negf_def,
    Ideal.ofBits_def, one_f32]
  rfl

/-- THE REFERENCE IS `G`: its last stage, as a function of the four float arguments, is the specification. -/
theorem result_eq (x0 : (⟨S8192x1024, .f32⟩ : BufTy).Contents (Elt Ideal)) (x1 : (⟨S8192x32, .f32⟩ : BufTy).Contents (Elt Ideal))
    (x4 : (⟨S8x1024x1024, .f32⟩ : BufTy).Contents (Elt Ideal)) (x5 : (⟨S8x1024x512, .f32⟩ : BufTy).Contents (Elt Ideal)) :
    val_main_v10 (F := Ideal) x0 x1 x4 x5 = G x0 x1 x4 x5 := by
  funext i
  obtain ⟨r, q, rfl⟩ : ∃ (r : Fin 8192) (q : Fin 1024), i = ix2 r q := ⟨i 0, i 1, eq_ix2 i⟩
  have hrl : r.val < 8192 := r.isLt
  have hql : q.val < 1024 := q.isLt
  rw [G_ix2, val_main_v10_apply, val_main_v9_apply]
  unfold ffnRow
  refine Finset.sum_congr rfl fun h _ => ?_
  rw [hid_apply x0 x1 x4 (lidx_main_v9 (idx_main_v10 (ix2 r q)) h) r (expertOf r) h
    (by show r.val = (r.val * 1024 + q.val) / 1048576 * 1024 + (r.val * 1024 + q.val) / 1024 % 1024; omega)
    (by show r.val / 1024 = (r.val * 1024 + q.val) / 1048576; omega) rfl]
  refine congrArg (hid (deq x0 x1 r) (fun j d => x4 (ix3 (expertOf r) j d)) h * ·) (congrArg x5 (funext fun a => Fin.ext ?_))
  match a with
  | ⟨0, _⟩ => show (r.val * 1024 + q.val) / 1048576 = r.val / 1024; omega
  | ⟨1, _⟩ => show (r.val * 1024 + q.val) % 1024 = q.val; omega
  | ⟨2, _⟩ => rfl

end Cert.ExpertFFN.Ref

end
-- ==== Proof.lean ====
/-
  The grouped expert network: 8192 token rows in 8 groups of 1024 consecutive rows, one expert per group.

  Each row is scaled block by block (32 columns share a scale), projected up by its expert's 1024 weight rows, gated
  (`a · logistic a · b` of projections `h` and `512 + h`) and projected down by the expert's second table. The kernel does
  this 512 rows at a time over a grid of 8 experts × 2 half-groups; the reference regroups the rows as [8, 1024, ·] and
  uses two batched contractions, writing the logistic as `1 / (1 + e^(-a))`. On the extended reals both are the same
  function `G` of the four float arguments (Proof/Spec.lean), entry by entry: the same sums over the same index sets in
  the same order of factors, so no law beyond re-indexing is used and finiteness of the inputs is never needed.

  Proof/KernelPayload.lean reads the kernel body's stored value at one entry; Proof/KernelValue.lean reads the staged
  blocks and assembles the 16 written blocks into the whole array; Proof/RefValue.lean reads the reference's stages.
  The three frames are the programs' runs with the values dropped; the idealization rewrote nothing.
-/
import proofs.«179307_j37014028157134_1_alg».proof.Defs
import proofs.«179307_j37014028157134_1_alg».proof.Proof.Gen.Kernel
import proofs.«179307_j37014028157134_1_alg».proof.Proof.Gen.Kernel.Skeleton
import proofs.«179307_j37014028157134_1_alg».proof.Proof.Gen.Kernel.Launch
import proofs.«179307_j37014028157134_1_alg».proof.Proof.Gen.Kernel.Points
import proofs.«179307_j37014028157134_1_alg».proof.Proof.Gen.Kernel.Frame
import proofs.«179307_j37014028157134_1_alg».proof.Proof.Gen.KernelIdeal
import proofs.«179307_j37014028157134_1_alg».proof.Proof.Gen.KernelIdeal.Skeleton
import proofs.«179307_j37014028157134_1_alg».proof.Proof.Gen.KernelIdeal.Launch
import proofs.«179307_j37014028157134_1_alg».proof.Proof.Gen.KernelIdeal.Points
import proofs.«179307_j37014028157134_1_alg».proof.Proof.Gen.KernelIdeal.Frame
import proofs.«179307_j37014028157134_1_alg».proof.Proof.Gen.ReferenceIdeal
import proofs.«179307_j37014028157134_1_alg».proof.Proof.Gen.Pre_finite_inputs
import proofs.«179307_j37014028157134_1_alg».proof.Proof.Gen.KernelIdeal.Value
import proofs.«179307_j37014028157134_1_alg».proof.Proof.Gen.ReferenceIdeal.Run
import proofs.«179307_j37014028157134_1_alg».proof.Proof.Gen.ReferenceIdeal.Read
import proofs.«179307_j37014028157134_1_alg».proof.Proof.KernelValue
import proofs.«179307_j37014028157134_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's result array and the reference's are both `G` of the four float
    arguments. -/
theorem algebraic : Cert.algebraic_KernelIdeal_ReferenceIdeal := by
  intro m ρ m' ρ' _ hagree
  refine ⟨_, Cert.ExpertFFN.KerValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v10_eq _ _ _ _).trans ((Cert.ExpertFFN.Ref.result_eq _ _ _ _).trans ?_)
  rw [(hagree c).1, (hagree c).2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
